-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x32768 : Shape := ⟨2, ![128, 32768]⟩
abbrev S_ : Shape := ⟨0, ![]⟩

class Facts : Prop where
  bcast_S_S128x32768 : S_.BroadcastsInDim S128x32768 (![] : Fin 0 → Fin S128x32768.rank)
  reducesTo_S128x32768_S_d0_1 : S128x32768.ReducesTo [0, 1] S_
  h_S_ : 0 < S_.numel

variable [Facts]

def fn {F : FTy → Type} [FloatOps F] (main_arg0 : FVec F S128x32768 .f32) (main_arg1 : IVec S128x32768 1) : IVec S_ 1 :=
  let main_v0 : FVec F S128x32768 .f32 := Host.absf main_arg0
  let main_cst : FVec F S_ .f32 := constant S_ .f32 0x7F800000#32
  let main_v1 : FVec F S128x32768 .f32 := broadcastInDim S128x32768 ![] bcast_S_S128x32768 main_cst
  let main_v2 : IVec S128x32768 1 := cmpf .olt main_v0 main_v1
  let main_c : IVec S_ 1 := constantI S_ 1 1#1
  let main_v3 : IVec S_ 1 := (fun x v => Host.reduce IntOp.andi x v reducesTo_S128x32768_S_d0_1 h_S_) main_v2 main_c
  main_v3
-- ==== Kernel.lean ====
abbrev S128x32768 : Shape := ⟨2, ![128, 32768]⟩
abbrev S128x4096 : Shape := ⟨2, ![128, 4096]⟩

abbrev nBuf : Space → Nat
  | .hbm => 4
  | .vmem => 6
  | .smem => 0
  | _ => 0

abbrev bufTy : (tb : Table) → Fin (tcTables nBuf tb) → BufTy
  | .hbm, ⟨0, _⟩ => ⟨S128x32768, .f32⟩
  | .hbm, ⟨1, _⟩ => ⟨S128x32768, .i1⟩
  | .hbm, ⟨2, _⟩ => ⟨S128x32768, .i32⟩
  | .hbm, ⟨3, _⟩ => ⟨S128x32768, .f32⟩
  | .local _ .vmem, ⟨0, _⟩ => ⟨S128x4096, .f32⟩
  | .local _ .vmem, ⟨1, _⟩ => ⟨S128x4096, .f32⟩
  | .local _ .vmem, ⟨2, _⟩ => ⟨S128x4096, .i32⟩
  | .local _ .vmem, ⟨3, _⟩ => ⟨S128x4096, .i32⟩
  | .local _ .vmem, ⟨4, _⟩ => ⟨S128x4096, .f32⟩
  | .local _ .vmem, ⟨5, _⟩ => ⟨S128x4096, .f32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  natLt_1_32 : 1 < 32
  inb_S128x4096_S128x4096_0_0 : ∀ a, (![0, 0] : Fin 2 → Nat) a + S128x4096.size a ≤ S128x4096.size a
  h_S128x4096 : 0 < S128x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x32768.size a
  hwx0_0 : ∀ i : grid0.Coords, EltTy.bits .f32 = 32 ∨ (Rect.block (s := S128x32768) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x32768.size a
  hwx0_1 : ∀ i : grid0.Coords, EltTy.bits .i32 = 32 ∨ (Rect.block (s := S128x32768) S128x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S128x32768.size a
  hwx0_2 : ∀ i : grid0.Coords, EltTy.bits .f32 = 32 ∨ (Rect.block (s := S128x32768) S128x4096.size (cc0_transform_2 i) (hinb0_2 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x32768 : Shape := ⟨2, ![128, 32768]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x32768, .i1⟩
  | .hbm, ⟨2, _⟩ => ⟨S_, .f32⟩
  | .hbm, ⟨3, _⟩ => ⟨S128x32768, .f32⟩
  | .hbm, ⟨4, _⟩ => ⟨S128x32768, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  bcast_S_S128x32768 : S_.BroadcastsInDim S128x32768 (![] : Fin 0 → Fin S128x32768.rank)

variable [Facts₀]

class Facts : Prop extends Facts₀ where

variable [Facts]
-- ==== Proof.MaskSelect.lean ====
/-
  The mathematics shared by the two programs, stated over an arbitrary shape and at any float instance.

  Both programs compute a masked copy: entry `i` of the result is `x i` where the mask bit at `i` is set and
  the float denoted by the all-zero word elsewhere. The kernel does not see the one-bit mask directly: the host
  widens each mask bit to a 32-bit word before the call, and the kernel body tests that word against zero. A
  one-bit word widened by zero extension is non-zero exactly when the bit is set, so the test gives the bit back
  and the two selections are the same function, entry by entry. No arithmetic on floats is involved, hence no
  finiteness of the inputs is needed.
-/
import Idealize.ShloMosaic.PureOps

noncomputable section

namespace Cert.MaskSelect

open Idealize.ShloMosaic

variable {F : FTy → Type} [FloatOps F]

/-- Zero extension of one bit to 32 bits is different from zero exactly when the bit is one: comparing the
    widened word with zero for inequality returns the bit. -/
theorem widen_ne_zero (b : BitVec 1) : IntOp.cmpi .ne (b.setWidth 32) 0#32 = b := by
  revert b; decide

/-- The masked copy: `x i` where the mask bit is set, the float of the zero word elsewhere. -/
def kept (s : Shape) (x : s.Idx → F .f32) (mk : s.Idx → BitVec 1) : s.Idx → F .f32 :=
  fun i => Scalar.select (mk i) (x i) (FloatOps.ofBits .f32 0x00000000#32)

/-- The masked copy at an index. -/
theorem kept_apply (s : Shape) (x : s.Idx → F .f32) (mk : s.Idx → BitVec 1) (i : s.Idx) :
    kept s x mk i = Scalar.select (mk i) (x i) (FloatOps.ofBits .f32 0x00000000#32) := rfl

/-- Selecting by "the widened mask word is not zero" between `x` and a splat of the zero float is the masked
    copy by the mask itself. -/
theorem select_widened (s : Shape) (x : Vec F s .f32) (w : IVec s 32) (mk : IVec s 1)
    (hw : ∀ i, w i = (mk i).setWidth 32) :
    select (cmpi .ne w (constantI s 32 0#32)) x (broadcast s (Scalar.ofBits .f32 0x00000000#32 : F .f32))
      = kept s x mk := by
  funext i
  show Scalar.select (IntOp.cmpi .ne (w i) 0#32) (x i) (FloatOps.ofBits .f32 0x00000000#32) = _
  rw [hw i, widen_ne_zero]
  rfl

/-- Selecting by the mask between `x` and any array that is the zero float everywhere is the masked copy. -/
theorem select_zero (s : Shape) (x : Vec F s .f32) (mk : IVec s 1) (z : Vec F s .f32)
    (hz : ∀ i, z i = FloatOps.ofBits .f32 0x00000000#32) :
    select mk x z = kept s x mk := by
  funext i
  show Scalar.select (mk i) (x i) (z i) = _
  rw [hz i]
  rfl

end Cert.MaskSelect

end
-- ==== Proof.KernelArray.lean ====
/-
  What the idealized kernel leaves in its result array: the masked copy of its first argument by its second.

  The host widens the one-bit mask to 32-bit words; the call then walks the 128 x 32768 arrays in eight column
  blocks of 128 x 4096. At grid point `t` all three windows (the data, the widened mask, the result) sit on the
  same block: rows 0..127, columns 4096 t .. 4096 t + 4095. The body loads the data block and the widened-mask
  block whole, selects entry by entry on "mask word is not zero" between the datum and the zero float, and stores
  the block whole. So what point `t` writes back is block `t` of one whole-array function, the masked copy; the
  eight blocks tile the array (column `q` lies in block `q / 4096`), and the array after the run is that function.
-/
import proofs.«109837_g51719996178485_cont_8to1c4_819_2_alg».proof.Proof.Gen.KernelIdeal.Value
import proofs.«109837_g51719996178485_cont_8to1c4_819_2_alg».proof.Proof.MaskSelect
import Idealize.ShloMosaic.Lib.Pipeline.Value
import Idealize.ShloMosaic.Lib.StableHlo.Run

set_option maxRecDepth 16384

noncomputable section

namespace Cert.KernelIdeal.MaskedCopy

open Cert.KernelIdeal Cert.KernelIdeal.Gen Idealize.ShloMosaic Idealize.ShloMosaic.TcCoe Idealize.SL.Sem
open Idealize.ShloMosaic.Pipeline (Dat)
open Cert.MaskSelect

variable {F : FTy → Type} [FloatOps F]
variable (m : (ℓ : Loc nD τ sig) → Buf (Elt F) ℓ) (ρ : Dev nD → PrngReg)

/-- The body's rectangles start at the origin of the block. -/
theorem origin : (![0, 0] : Fin 2 → Nat) = fun _ => 0 := funext fun a => by fin_cases a <;> rfl

/-- The mask array the call stages is the launch mask with every bit zero-extended to a 32-bit word: the one
    host operation before the call. -/
theorem widened (c : Dev nD) :
    (V m c main_v0 : S128x32768.Idx → BitVec 32) = extui 32 (m ((c : Thread nD τ).loc main_arg1)) natLt_1_32 := by
  dsimp only [V, hostOps0]; after_results

/-- The widened mask at an index. -/
theorem widened_apply (c : Dev nD) (i : S128x32768.Idx) :
    (V m c main_v0 : S128x32768.Idx → BitVec 32) i = (m ((c : Thread nD τ).loc main_arg1) i).setWidth 32 := by
  rw [widened]; rfl

/-- The three windows move together over the grid: at point `t` each is on block row 0, block column `t`. -/
theorem block_index : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = 0
    ∧ win0_2.index t (1 : Fin 2) = t.val :=
  (by decide +kernel : ∀ t : Fin grid0.N, _)

/-- What point `t` writes back to the result array is block `t` of the masked copy of the data array (as the
    call finds it) by the launch mask. -/
theorem written_back (c : Dev nD) (t : Fin cfg0.N) :
    (dats m 0 c).flushed 2 t
      = ((cfg0.win 2).blk t).view.read (Elt F) (kept S128x32768 (V m c main_arg0) (m ((c : Thread nD τ).loc main_arg1))) := by
  rw [Cert.KernelIdeal.Value.flushed2]
  unfold out0_2
  rw [View.canon_unit_zero origin]
  simp only [View.ld_unit_zero (S := S128x4096) origin]
  obtain ⟨e0, e1, e2, e3, e4, e5⟩ := block_index t
  funext j
  show Scalar.select (IntOp.cmpi .ne ((V m c main_v0 : S128x32768.Idx → BitVec 32) (((cfg0.win 1).blk t).view.emb j)) 0#32)
        (V m c main_arg0 (((cfg0.win 0).blk t).view.emb j)) (FloatOps.ofBits .f32 0x00000000#32)
      = Scalar.select (m ((c : Thread nD τ).loc main_arg1) (((cfg0.win 2).blk t).view.emb j))
        (V m c main_arg0 (((cfg0.win 2).blk t).view.emb j)) (FloatOps.ofBits .f32 0x00000000#32)
  have h0 : ((cfg0.win 0).blk t).view.emb j = ((cfg0.win 2).blk t).view.emb j := by
    funext a; apply Fin.ext
    match a with
    | ⟨0, _⟩ => show win0_0.index t (0 : Fin 2) * 128 + 1 * (j 0).val = win0_2.index t (0 : Fin 2) * 128 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb j = ((cfg0.win 2).blk t).view.emb j := by
    funext a; apply Fin.ext
    match a with
    | ⟨0, _⟩ => show win0_1.index t (0 : Fin 2) * 128 + 1 * (j 0).val = win0_2.index t (0 : Fin 2) * 128 + 1 * (j 0).val; omega
    | ⟨1, _⟩ => show win0_1.index t (1 : Fin 2) * 4096 + 1 * (j 1).val = win0_2.index t (1 : Fin 2) * 4096 + 1 * (j 1).val; omega
  rw [h0, h1, widened_apply, widen_ne_zero]

/-- An index of the result array lies in point `t`'s block iff each coordinate lies in the block's range. -/
theorem mem_block (t : Fin cfg0.N) (i : S128x32768.Idx) :
    i ∈ ((cfg0.win 2).blk t).view.set ↔ ∀ a : Fin 2, win0_2.index t a * S128x4096.size a ≤ (i a).val
      ∧ (i a).val < win0_2.index t a * S128x4096.size a + S128x4096.size a := by
  show i ∈ ((View.whole main_v1).slice (win0_2.rect t)).set ↔ _
  rw [View.set_slice_whole, Rect.mem_set_unit]
  exact Iff.rfl

/-- Every index of the result array lies in some point's block: column `q` in block `q / 4096`. -/
theorem covered (i : S128x32768.Idx) :
    ∃ t : Fin cfg0.N, (cfg0.win 2).flush t = true ∧ i ∈ ((cfg0.win 2).blk t).view.set := by
  have hi0 : (i 0).val < 128 := (i 0).isLt
  have hi1 : (i 1).val < 32768 := (i 1).isLt
  have hN : cfg0.N = 8 := N_0
  have hlt : (i 1).val / 4096 < cfg0.N := by rw [hN]; omega
  refine ⟨⟨(i 1).val / 4096, hlt⟩, flush0_2 _, ?_⟩
  rw [mem_block]
  obtain ⟨-, -, -, -, e4, e5⟩ := block_index ⟨(i 1).val / 4096, hlt⟩
  have e5' : win0_2.index ⟨(i 1).val / 4096, hlt⟩ (1 : Fin 2) = (i 1).val / 4096 := e5
  intro a
  match a with
  | ⟨0, _⟩ =>
    show win0_2.index ⟨(i 1).val / 4096, hlt⟩ (0 : Fin 2) * 128 ≤ (i 0).val
      ∧ (i 0).val < win0_2.index ⟨(i 1).val / 4096, hlt⟩ (0 : Fin 2) * 128 + 128
    omega
  | ⟨1, _⟩ =>
    show win0_2.index ⟨(i 1).val / 4096, hlt⟩ (1 : Fin 2) * 4096 ≤ (i 1).val
      ∧ (i 1).val < win0_2.index ⟨(i 1).val / 4096, hlt⟩ (1 : Fin 2) * 4096 + 4096
    omega

/-- The result array after the run is the masked copy of the launch data by the launch mask. -/
theorem result_array (c : Dev nD) :
    (dats m 0 c).arrAt 2 cfg0.N
      = kept S128x32768 (m ((c : Thread nD τ).loc main_arg0)) (m ((c : Thread nD τ).loc main_arg1)) := by
  rw [← V_main_arg0 m c]
  exact (dats m 0 c).arrAt_eq_of_cover 2 _ (fun t _ => written_back m c t) covered

/-- The kernel's run: every weakly fair execution ends with the result array at the masked copy of the
    arguments and the arguments unchanged. -/
theorem run : θ_run defs (onTc (τ := τ) (main (F := F))) ⟨m, fun _ => 0, ρ⟩ fun r => ∀ c : Dev nD,
      r.2.mem ((c : Thread nD τ).loc main_v1)
        = kept S128x32768 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩)
    (Cert.KernelIdeal.Value.run_blocks m ρ)

end Cert.KernelIdeal.MaskedCopy

end
-- ==== Proof.ReferenceArray.lean ====
/-
  What the idealized reference computes: the masked copy of its first argument by its second.

  The reference selects, entry by entry, by the one-bit mask between the datum and an array that is the scalar
  zero constant replicated to every entry. That replicated array is the zero float everywhere, so the result is
  the masked copy, the same whole-array function the kernel's result array ends at.
-/
import proofs.«109837_g51719996178485_cont_8to1c4_819_2_alg».proof.Proof.Gen.ReferenceIdeal.Read
import proofs.«109837_g51719996178485_cont_8to1c4_819_2_alg».proof.Proof.MaskSelect

noncomputable section

namespace Cert.ReferenceIdeal.MaskedCopy

open Cert.ReferenceIdeal Cert.ReferenceIdeal.Gen Idealize.ShloMosaic Idealize.ShloMosaic.TcCoe Idealize.SL.Sem
open Cert.MaskSelect

variable {F : FTy → Type} [FloatOps F]

/-- The reference run's result term is the masked copy of the data by the mask: the selection's third operand,
    the replicated scalar constant, is the zero float at every index. -/
theorem result_eq (x : (⟨S128x32768, .f32⟩ : BufTy).Contents (Elt F)) (mk : (⟨S128x32768, .i1⟩ : BufTy).Contents (Elt F)) :
    select mk x (broadcastInDim S128x32768 ![] bcast_S_S128x32768 (constant S_ .f32 0x00000000#32))
      = kept S128x32768 x mk := by
  rw [Cert.ReferenceIdeal.Read.val_main_v1_eq]
  funext i
  rw [Cert.ReferenceIdeal.Read.val_main_v1_apply, Cert.ReferenceIdeal.Read.val_main_v0_apply,
    Cert.ReferenceIdeal.Read.val_main_cst_apply]
  rfl

end Cert.ReferenceIdeal.MaskedCopy

end
-- ==== Proof.lean ====
/-
  The kernel is a masked copy, `out = where(mask, x, 0)`, over a 128 x 32768 float array and a one-bit mask of
  the same shape; the reference is the same selection written in one line on the host.

  The kernel widens the mask to 32-bit words on the host and walks the arrays in eight column blocks of
  128 x 4096; on each block it tests the widened mask against zero and selects between the data and the zero
  float. A zero-extended bit is non-zero exactly when the bit is one, so block by block the kernel writes the
  masked copy of the data by the original mask, and the eight blocks tile the result array: after the run it is
  the masked copy of the whole arguments (Proof/KernelArray.lean). The reference selects by the mask between the
  data and a replicated zero constant, which is the same whole-array function (Proof/ReferenceArray.lean). The
  common function and the bit fact are in Proof/MaskSelect.lean. Nothing is computed on the floats, so the
  precondition (finite inputs) is never opened.

  The three frames: the two kernels' are the frame run of the pipelined call, the reference's is its run with the
  result dropped. The idealization rewrote no operation, so `preserves` states nothing.
-/
import proofs.«109837_g51719996178485_cont_8to1c4_819_2_alg».proof.Defs
import proofs.«109837_g51719996178485_cont_8to1c4_819_2_alg».proof.Proof.Gen.Kernel
import proofs.«109837_g51719996178485_cont_8to1c4_819_2_alg».proof.Proof.Gen.Kernel.Skeleton
import proofs.«109837_g51719996178485_cont_8to1c4_819_2_alg».proof.Proof.Gen.Kernel.Launch
import proofs.«109837_g51719996178485_cont_8to1c4_819_2_alg».proof.Proof.Gen.Kernel.Points
import proofs.«109837_g51719996178485_cont_8to1c4_819_2_alg».proof.Proof.Gen.Kernel.Frame
import proofs.«109837_g51719996178485_cont_8to1c4_819_2_alg».proof.Proof.Gen.KernelIdeal
import proofs.«109837_g51719996178485_cont_8to1c4_819_2_alg».proof.Proof.Gen.KernelIdeal.Skeleton
import proofs.«109837_g51719996178485_cont_8to1c4_819_2_alg».proof.Proof.Gen.KernelIdeal.Launch
import proofs.«109837_g51719996178485_cont_8to1c4_819_2_alg».proof.Proof.Gen.KernelIdeal.Points
import proofs.«109837_g51719996178485_cont_8to1c4_819_2_alg».proof.Proof.Gen.KernelIdeal.Frame
import proofs.«109837_g51719996178485_cont_8to1c4_819_2_alg».proof.Proof.Gen.ReferenceIdeal
import proofs.«109837_g51719996178485_cont_8to1c4_819_2_alg».proof.Proof.Gen.Pre_finite_inputs
import proofs.«109837_g51719996178485_cont_8to1c4_819_2_alg».proof.Proof.Gen.KernelIdeal.Value
import proofs.«109837_g51719996178485_cont_8to1c4_819_2_alg».proof.Proof.Gen.ReferenceIdeal.Run
import proofs.«109837_g51719996178485_cont_8to1c4_819_2_alg».proof.Proof.Gen.ReferenceIdeal.Read
import proofs.«109837_g51719996178485_cont_8to1c4_819_2_alg».proof.Proof.MaskSelect
import proofs.«109837_g51719996178485_cont_8to1c4_819_2_alg».proof.Proof.KernelArray
import proofs.«109837_g51719996178485_cont_8to1c4_819_2_alg».proof.Proof.ReferenceArray
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is three host operations; its run, with the result forgotten, is its frame. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the data and the mask, both idealized programs end with the result array at the
    masked copy of the data by the mask. -/
theorem algebraic : Cert.algebraic_KernelIdeal_ReferenceIdeal := by
  intro m ρ m' ρ' _ hagree
  refine ⟨_, Cert.KernelIdeal.MaskedCopy.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.MaskedCopy.result_eq _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
